-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S1x64 : Shape := ⟨2, ![1, 64]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v30 : IVec S_ 1) (main_v32 : IVec S1600000 1) : IVec S_ 1 :=
  let main_c_13 : IVec S_ 1 := constantI S_ 1 1#1
  let main_v33 : IVec S_ 1 := (fun x v => Host.reduce IntOp.andi x v reducesTo_S1600000_S_d0 h_S_) main_v32 main_c_13
  let main_v34 : IVec S_ 1 := andi main_v30 main_v33
  main_v34

def fn_part1 {F : FTy → Type} [FloatOps F] (main_arg4 : IVec S1600000 32) (main_arg5 : IVec S1600000 32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg4 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 100000#32
  let main_v23 : IVec S1600000 32 := broadcastInDim S1600000 ![] bcast_S_S1600000 main_c_8
  let main_v24 : IVec S1600000 1 := cmpi .slt main_arg4 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  let main_c_10 : IVec S_ 32 := constantI S_ 32 0#32
  let main_v27 : IVec S1600000 32 := broadcastInDim S1600000 ![] bcast_S_S1600000 main_c_10
  let main_v28 : IVec S1600000 1 := cmpi .sge main_arg5 main_v27
  let main_c_11 : IVec S_ 1 := constantI S_ 1 1#1
  let main_v29 : IVec S_ 1 := (fun x v => Host.reduce IntOp.andi x v reducesTo_S1600000_S_d0 h_S_) main_v28 main_c_11
  let main_v30 : IVec S_ 1 := andi main_v26 main_v29
  let main_c_12 : IVec S_ 32 := constantI S_ 32 100000#32
  let main_v31 : IVec S1600000 32 := broadcastInDim S1600000 ![] bcast_S_S1600000 main_c_12
  let main_v32 : IVec S1600000 1 := cmpi .slt main_arg5 main_v31
  fn_part2 (F := F) main_v30 main_v32

def fn {F : FTy → Type} [FloatOps F] (main_arg0 : FVec F S100000x256 .f32) (main_arg1 : FVec F S256x64 .f32) (main_arg2 : FVec F S1x64 .f32) (main_arg3 : FVec F S1x64 .f32) (main_arg4 : IVec S1600000 32) (main_arg5 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v13 main_v16
-- ==== Kernel.lean ====
abbrev S100000x256 : Shape := ⟨2, ![100000, 256]⟩
abbrev S256x64 : Shape := ⟨2, ![256, 64]⟩
abbrev S1x64 : Shape := ⟨2, ![1, 64]⟩
abbrev S1600000 : Shape := ⟨1, ![1600000]⟩
abbrev S100000x64 : Shape := ⟨2, ![100000, 64]⟩
abbrev S100000x1 : Shape := ⟨2, ![100000, 1]⟩
abbrev S4000x256 : Shape := ⟨2, ![4000, 256]⟩
abbrev S4000x64 : Shape := ⟨2, ![4000, 64]⟩
abbrev S4000x1 : Shape := ⟨2, ![4000, 1]⟩
abbrev S4000 : Shape := ⟨1, ![4000]⟩
abbrev S100000 : Shape := ⟨1, ![100000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S12500x128 : Shape := ⟨2, ![12500, 128]⟩
abbrev S12500 : Shape := ⟨1, ![12500]⟩
abbrev S12500x1 : Shape := ⟨2, ![12500, 1]⟩
abbrev S1600000x64 : Shape := ⟨2, ![1600000, 64]⟩

abbrev nBuf : Space → Nat
  | .hbm => 99
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1x64, .f32⟩
  | .hbm, ⟨3, _⟩ => ⟨S1x64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S100000x1, .f32⟩
  | .hbm, ⟨8, _⟩ => ⟨S100000x1, .f32⟩
  | .hbm, ⟨9, _⟩ => ⟨S100000, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000, .f32⟩
  | .hbm, ⟨52, _⟩ => ⟨S_, .f32⟩
  | .hbm, ⟨53, _⟩ => ⟨S1600000, .f32⟩
  | .hbm, ⟨54, _⟩ => ⟨S1600000, .f32⟩
  | .hbm, ⟨55, _⟩ => ⟨S12500x128, .f32⟩
  | .hbm, ⟨56, _⟩ => ⟨S12500x128, .f32⟩
  | .hbm, ⟨57, _⟩ => ⟨S12500x128, .f32⟩
  | .hbm, ⟨58, _⟩ => ⟨S1600000, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1, .i32⟩
  | .hbm, ⟨68, _⟩ => ⟨S_, .i32⟩
  | .hbm, ⟨69, _⟩ => ⟨S1600000x1, .i32⟩
  | .hbm, ⟨70, _⟩ => ⟨S1600000x1, .i1⟩
  | .hbm, ⟨71, _⟩ => ⟨S1x1, .i32⟩
  | .hbm, ⟨72, _⟩ => ⟨S1600000x1, .i32⟩
  | .hbm, ⟨73, _⟩ => ⟨S1600000x1, .i1⟩
  | .hbm, ⟨74, _⟩ => ⟨S1600000x1, .i1⟩
  | .hbm, ⟨75, _⟩ => ⟨S_, .i1⟩
  | .hbm, ⟨76, _⟩ => ⟨S1600000, .i1⟩
  | .hbm, ⟨77, _⟩ => ⟨S1600000x64, .f32⟩
  | .hbm, ⟨78, _⟩ => ⟨S1600000x64, .i1⟩
  | .hbm, ⟨79, _⟩ => ⟨S_, .f32⟩
  | .hbm, ⟨80, _⟩ => ⟨S1600000x64, .f32⟩
  | .hbm, ⟨81, _⟩ => ⟨S1600000x64, .f32⟩
  | .hbm, ⟨82, _⟩ => ⟨S1600000x1, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000, .f32⟩
  | .hbm, ⟨87, _⟩ => ⟨S1600000x1, .i32⟩
  | .hbm, ⟨88, _⟩ => ⟨S100000, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S1x64, .f32⟩
  | .local _ .vmem, ⟨4, _⟩ => ⟨S1x64, .f32⟩
  | .local _ .vmem, ⟨5, _⟩ => ⟨S4000x64, .f32⟩
  | .local _ .vmem, ⟨6, _⟩ => ⟨S4000x64, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S12500x128, .f32⟩
  | .local _ .vmem, ⟨12, _⟩ => ⟨S12500x128, .f32⟩
  | .local _ .vmem, ⟨13, _⟩ => ⟨S12500x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_cst : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_cst_0 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_cst_1 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12500x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  broadcasts_S1x64_S4000x64 : S1x64.Broadcasts S4000x64
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  inb_S4000x64_S4000x64_0_0 : ∀ a, (![0, 0] : Fin 2 → Nat) a + S4000x64.size a ≤ S4000x64.size a
  h_S4000x64 : 0 < S4000x64.numel
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S1600000_S12500x128 : S1600000.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  reduces_S12500x128_S12500 : S12500x128.Reduces [1] S12500
  shapeCasts_S12500_S12500x1 : S12500.ShapeCasts S12500x1
  reduces_S12500x1_S1 : S12500x1.Reduces [0] S1
  shapeCasts_S1_S1x1 : S1.ShapeCasts S1x1
  broadcasts_S1x1_S12500x128 : S1x1.Broadcasts S12500x128
  shapeCasts_S12500x128_S1600000 : S12500x128.ShapeCasts S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000 : S_.BroadcastsInDim S100000 (![] : Fin 0 → Fin S100000.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S4000x256_S256x64_S4000x64_1_0_0_1_n_n_wf : DotDims.WF S4000x256 S256x64 S4000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000_S1600000x1_S1600000_n_0_0_1_wf : ScatterDims.WF S100000 S1600000x1 S1600000 [] [0] [0] 1
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S100000x1.size a
  hwx0_6 : ∀ i : grid0.Coords, EltTy.bits .f32 = 32 ∨ (Rect.block (s := S100000x1) S4000x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S12500x128.size a ≤ S12500x128.size a
  hwx1_0 : ∀ i : grid1.Coords, EltTy.bits .f32 = 32 ∨ (Rect.block (s := S12500x128) S12500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12500x128.size a ≤ S12500x128.size a
  hwx1_1 : ∀ i : grid1.Coords, EltTy.bits .f32 = 32 ∨ (Rect.block (s := S12500x128) S12500x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12500x128.size a ≤ S12500x128.size a
  hwx1_2 : ∀ i : grid1.Coords, EltTy.bits .f32 = 32 ∨ (Rect.block (s := S12500x128) S12500x128.size (cc1_transform_2 i) (hinb1_2 i)).WholeWords (EltTy.packing .f32)

variable [Facts₀]

def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S4000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S4000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S12500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S12500x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S12500x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S1x64 : Shape := ⟨2, ![1, 64]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S1x64, .f32⟩
  | .hbm, ⟨3, _⟩ => ⟨S1x64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S100000x64, .f32⟩
  | .hbm, ⟨8, _⟩ => ⟨S100000x64, .f32⟩
  | .hbm, ⟨9, _⟩ => ⟨S_, .f32⟩
  | .hbm, ⟨10, _⟩ => ⟨S100000, .f32⟩
  | .hbm, ⟨11, _⟩ => ⟨S100000x64, .f32⟩
  | .hbm, ⟨12, _⟩ => ⟨S100000x64, .f32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .i1⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S1600000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1600000, .f32⟩
  | .hbm, ⟨46, _⟩ => ⟨S1600000, .f32⟩
  | .hbm, ⟨47, _⟩ => ⟨S_, .f32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  bcast_S_S100000 : S_.BroadcastsInDim S100000 (![] : Fin 0 → Fin S100000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The three pure stages that the kernel's program and the reference share, as whole-array functions.

  * `wrapCol idx`: an edge-index vector with negative entries wrapped by the table's length (NumPy's reading of a
    negative index), laid out as the one-column start-index table a gather takes.
  * `edgeScore a b`: from the two gathered per-node scores of every edge, `z = a + b`, the leaky rectifier
    `z if z > 0 else 0.2·z`, then `exp ((r - min r) / (max r - min r))` with the minimum and maximum over ALL edges.
  * `aggregate att xcol row`: the per-row sum of edge weights `S[n] = Σ_{row e = n} att e`, the per-row weighted feature
    sum `H[n, j] = Σ_{row e = n} att e · xcol[e, j]`, and the quotient `H[n, j] / max (S[n], 1e-12)`.

  The reference's printed stages are these functions of its first stages (its product `X·W`, its two row sums and its
  three gathers); each equation holds by unfolding the stage definitions.
-/
import proofs.«419654_j62182536511730_3_alg».proof.Proof.Gen.ReferenceIdeal.Read

noncomputable section

namespace Cert.Gat

open Cert.ReferenceIdeal Cert.ReferenceIdeal.Gen Cert.ReferenceIdeal.Read Idealize.ShloMosaic

variable {F : FTy → Type} [FloatOps F]

/-- An index vector, negatives wrapped by 100000, as the [E, 1] start-index column of a gather. -/
def wrapCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The leaky rectifier with slope 0.2 on the negative side. -/
def leaky (z : FVec F S1600000 .f32) : FVec F S1600000 .f32 :=
  select (cmpf .ogt z (broadcastInDim S1600000 ![] bcast_S_S1600000 (constant S_ .f32 0x00000000#32))) z
    (mulf (broadcastInDim S1600000 ![] bcast_S_S1600000 (constant S_ .f32 0x3E4CCCCD#32)) z)

/-- The minimum over all edges, from +∞. -/
def minAll (r : FVec F S1600000 .f32) : FVec F S_ .f32 :=
  Host.reduce FloatOps.minimumf r (constant S_ .f32 0x7F800000#32) reducesTo_S1600000_S_d0 h_S_

/-- The maximum over all edges, from -∞. -/
def maxAll (r : FVec F S1600000 .f32) : FVec F S_ .f32 :=
  Host.reduce FloatOps.maximumf r (constant S_ .f32 0xFF800000#32) reducesTo_S1600000_S_d0 h_S_

/-- Min-max normalisation over all edges, then the exponential. -/
def normExp (r : FVec F S1600000 .f32) : FVec F S1600000 .f32 :=
  Host.exp (Host.divf (subf r (broadcastInDim S1600000 ![] bcast_S_S1600000 (minAll r)))
    (broadcastInDim S1600000 ![] bcast_S_S1600000 (subf (maxAll r) (minAll r))))

/-- The attention weight of every edge from its two gathered node scores. -/
def edgeScore (a b : FVec F S1600000 .f32) : FVec F S1600000 .f32 := normExp (leaky (addf a b))

/-- Segment sums of the weights and of the weighted gathered features over the edges' rows, and their quotient. -/
def aggregate (att : FVec F S1600000 .f32) (xcol : FVec F S1600000x64 .f32) (row : IVec S1600000 32) : FVec F S100000x64 .f32 :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 row)
      (mulf (broadcastInDim S1600000x64 ![0, 1] bcast_S1600000x1_S1600000x64_0_1
        (broadcastInDim S1600000x1 ![0] bcast_S1600000_S1600000x1_0 att)) xcol))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 row) att)
          (broadcastInDim S100000 ![] bcast_S_S100000 (constant S_ .f32 0x2B8CBCCC#32)))))

section Reference

variable (x0 : FVec F S100000x256 .f32) (x1 : FVec F S256x64 .f32) (x2 x3 : FVec F S1x64 .f32) (x4 x5 : IVec S1600000 32)

/-- The reference gathers its first row-sum vector at the wrapped row indices. -/
theorem ref_gather_row : val_main_v13 (F := F) x0 x1 x2 x4
    = Host.gather gather_S100000_S1600000x1_S1600000_n_0_n_n_0_1_1 (val_main_v3 (F := F) x0 x1 x2) (wrapCol x4) := rfl

/-- The reference gathers its second row-sum vector at the wrapped column indices. -/
theorem ref_gather_col : val_main_v20 (F := F) x0 x1 x3 x5
    = Host.gather gather_S100000_S1600000x1_S1600000_n_0_n_n_0_1_1 (val_main_v6 (F := F) x0 x1 x3) (wrapCol x5) := rfl

/-- The reference gathers the rows of its product at the wrapped column indices. -/
theorem ref_gather_feat : val_main_v45 (F := F) x0 x1 x5
    = Host.gather gather_S100000x64_S1600000x1_S1600000x64_1_0_n_n_0_1_164 (val_main_v0 (F := F) x0 x1) (wrapCol x5) := rfl

/-- The reference's edge weights are `edgeScore` of its two gathered score vectors. -/
theorem ref_att : val_main_v34 (F := F) x0 x1 x2 x3 x4 x5
    = edgeScore (val_main_v13 (F := F) x0 x1 x2 x4) (val_main_v20 (F := F) x0 x1 x3 x5) := rfl

/-- The reference's result is `aggregate` of its edge weights, its gathered product rows and the row indices. -/
theorem ref_out : val_main_v55 (F := F) x0 x1 x2 x3 x4 x5
    = aggregate (val_main_v34 (F := F) x0 x1 x2 x3 x4 x5) (val_main_v45 (F := F) x0 x1 x5) x4 := rfl

end Reference

end Cert.Gat

end
-- ==== Proof.TakeFill.lean ====
/-
  The take that the kernel's program uses for its three gathers: the wrapped index column is tested against
  [0, 99999] per edge, the table is gathered at it, and edges that fail the test receive a not-a-number word instead
  of the gathered entry.
-/
import proofs.«419654_j62182536511730_3_alg».proof.Proof.Gen.KernelIdeal
import proofs.«419654_j62182536511730_3_alg».proof.Proof.Spec

noncomputable section

namespace Cert.Gat

open Cert.KernelIdeal Cert.KernelIdeal.Gen Idealize.ShloMosaic

variable {F : FTy → Type} [FloatOps F]

/-- Which edges' wrapped index lies in [0, 99999]: the take's validity mask. -/
def validMask (idx : IVec S1600000 32) : IVec S1600000 1 :=
  Host.reduce IntOp.andi
    (andi (cmpi .sge (wrapCol idx) (broadcastInDim S1600000x1 ![] bcast_S_S1600000x1 (constantI S_ 32 0#32)))
      (cmpi .sle (wrapCol idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The filling take of a vector table. -/
def takeVec (tbl : FVec F S100000 .f32) (idx : IVec S1600000 32) : FVec F S1600000 .f32 :=
  select (validMask idx) (Host.gather gather_S100000_S1600000x1_S1600000_n_0_n_n_0_1_1 tbl (wrapCol idx))
    (broadcastInDim S1600000 ![] bcast_S_S1600000 (constant S_ .f32 0x7FC00000#32))

/-- The filling take of the rows of a [N, 64] table. -/
def takeRows (tbl : FVec F S100000x64 .f32) (idx : IVec S1600000 32) : FVec F S1600000x64 .f32 :=
  select (broadcastInDim S1600000x64 ![0] bcast_S1600000_S1600000x64_0 (validMask idx))
    (Host.gather gather_S100000x64_S1600000x1_S1600000x64_1_0_n_n_0_1_164 tbl (wrapCol idx))
    (broadcastInDim S1600000x64 ![] bcast_S_S1600000x64 (constant S_ .f32 0x7FC00000#32))

end Cert.Gat

end
-- ==== Proof.KernelHost.lean ====
/-
  The host operations of the kernel's program between and after its two kernel launches, read as pure functions of
  the buffer contents they start from.

  Between the launches: each per-node score column [N, 1] is reshaped to a vector, taken at an edge-index vector
  (the take fills edges whose wrapped index falls outside [0, 99999]), and reshaped to the [12500, 128] layout of the
  score kernel; the product array and the index vectors are left as they were. After the second launch: the weights
  are reshaped back to a vector, the product's rows are taken at the column indices, and the shared aggregation
  follows.
-/
import proofs.«419654_j62182536511730_3_alg».proof.Proof.Gen.KernelIdeal.Frame
import proofs.«419654_j62182536511730_3_alg».proof.Proof.Spec
import proofs.«419654_j62182536511730_3_alg».proof.Proof.TakeFill
import Idealize.ShloMosaic.Lib.StableHlo.Run

noncomputable section

namespace Cert.Gat

open Cert.KernelIdeal Cert.KernelIdeal.Gen Idealize.ShloMosaic Idealize.ShloMosaic.TcCoe Idealize.SL.Sem Idealize.ShloMosaic.StableHlo

variable {F : FTy → Type} [FloatOps F]

/-! ## A value's buffer read at the value's type -/

omit [FloatOps F] in
/-- Contents written through a typed reference and read back through it are unchanged. -/
theorem ofBuf_toBuf {Val : EltTy → Type} {T : BufTy} (x : TRef sig T) (v : T.Contents Val) : x.ofBuf (x.toBuf v) = v := by
  obtain ⟨r, rfl, h2, h3⟩ := x; rfl

theorem ofBuf_arg4 (v : (Proc.devRef (τ := τ) .tc main_arg4).ty.Contents (Elt F)) :
    (TRef.of main_arg4 : TRef sig ⟨S1600000, .i32⟩).ofBuf v = v := rfl

theorem ofBuf_arg5 (v : (Proc.devRef (τ := τ) .tc main_arg5).ty.Contents (Elt F)) :
    (TRef.of main_arg5 : TRef sig ⟨S1600000, .i32⟩).ofBuf v = v := rfl

theorem ofBuf_v1 (v : (Proc.devRef (τ := τ) .tc main_v1).ty.Contents (Elt F)) :
    (TRef.of main_v1 : TRef sig ⟨S100000, .f32⟩).ofBuf v = v := rfl

theorem ofBuf_v2 (v : (Proc.devRef (τ := τ) .tc main_v2).ty.Contents (Elt F)) :
    (TRef.of main_v2 : TRef sig ⟨S100000, .f32⟩).ofBuf v = v := rfl

theorem ofBuf_v0_0 (v : (Proc.devRef (τ := τ) .tc main_v0_0).ty.Contents (Elt F)) :
    (TRef.of main_v0_0 : TRef sig ⟨S100000x64, .f32⟩).ofBuf v = v := rfl

theorem toBuf_v3 (v : (⟨S1600000, .f32⟩ : BufTy).Contents (Elt F)) :
    (TRef.of main_v3 : TRef sig ⟨S1600000, .f32⟩).toBuf v = v := rfl

theorem toBuf_v4 (v : (⟨S1600000, .f32⟩ : BufTy).Contents (Elt F)) :
    (TRef.of main_v4 : TRef sig ⟨S1600000, .f32⟩).toBuf v = v := rfl

theorem toBuf_v9 (v : (⟨S1600000x64, .f32⟩ : BufTy).Contents (Elt F)) :
    (TRef.of main_v9 : TRef sig ⟨S1600000x64, .f32⟩).toBuf v = v := rfl

variable (W : Valuation τ sig (Elt F))

/-! ## Between the two launches -/

/-- The first score column, as the [12500, 128] array the score kernel stages: reshaped, taken at the row indices, reshaped. -/
theorem mid_v5 :
    StableHlo.after hostOps1_3 (StableHlo.after hostOps1_2 (StableHlo.after hostOps1_1 (StableHlo.after hostOps1 W))) (Proc.devRef .tc main_v5)
      = shapeCast S12500x128 (takeVec (shapeCast S100000 (W (Proc.devRef .tc main_v0_1)) shapeCasts_S100000x1_S100000)
          (W (Proc.devRef .tc main_arg4))) shapeCasts_S1600000_S12500x128 := by
  after_results_simp
  simp only [ofBuf_toBuf]
  rw [ofBuf_arg4, ofBuf_v1, toBuf_v3]
  rfl

/-- The second score column likewise, taken at the column indices. -/
theorem mid_v6 :
    StableHlo.after hostOps1_3 (StableHlo.after hostOps1_2 (StableHlo.after hostOps1_1 (StableHlo.after hostOps1 W))) (Proc.devRef .tc main_v6)
      = shapeCast S12500x128 (takeVec (shapeCast S100000 (W (Proc.devRef .tc main_v0_2)) shapeCasts_S100000x1_S100000)
          (W (Proc.devRef .tc main_arg5))) shapeCasts_S1600000_S12500x128 := by
  after_results_simp
  simp only [ofBuf_toBuf]
  rw [ofBuf_arg5, ofBuf_v2, toBuf_v4]
  rfl

/-- These operations leave the product array as it was. -/
theorem mid_v0_0 :
    StableHlo.after hostOps1_3 (StableHlo.after hostOps1_2 (StableHlo.after hostOps1_1 (StableHlo.after hostOps1 W))) (Proc.devRef .tc main_v0_0)
      = W (Proc.devRef .tc main_v0_0) := by
  after_results_simp

/-- They leave the row indices as they were. -/
theorem mid_arg4 :
    StableHlo.after hostOps1_3 (StableHlo.after hostOps1_2 (StableHlo.after hostOps1_1 (StableHlo.after hostOps1 W))) (Proc.devRef .tc main_arg4)
      = W (Proc.devRef .tc main_arg4) := by
  after_results_simp

/-- They leave the column indices as they were. -/
theorem mid_arg5 :
    StableHlo.after hostOps1_3 (StableHlo.after hostOps1_2 (StableHlo.after hostOps1_1 (StableHlo.after hostOps1 W))) (Proc.devRef .tc main_arg5)
      = W (Proc.devRef .tc main_arg5) := by
  after_results_simp

/-! ## After the second launch -/

/-- The result buffer: the aggregation of the flattened weights, the product's rows taken at the column indices, and the
    row indices. -/
theorem tail_out :
    StableHlo.after hostOps2_2 (StableHlo.after hostOps2_1 (StableHlo.after hostOps2 W)) (Proc.devRef .tc main_v23)
      = aggregate (shapeCast S1600000 (W (Proc.devRef .tc main_v7)) shapeCasts_S12500x128_S1600000)
          (takeRows (W (Proc.devRef .tc main_v0_0)) (W (Proc.devRef .tc main_arg5))) (W (Proc.devRef .tc main_arg4)) := by
  after_results_simp
  simp only [ofBuf_toBuf]
  rw [ofBuf_arg5, ofBuf_v0_0, toBuf_v9]
  rfl

end Cert.Gat

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.MatmulRows.lean ====
/-
  What the first kernel launch leaves in its three output arrays, as whole arrays, for any entry contents and at the
  extended reals. Each of the 25 grid points writes one block of 4000 rows: the product of its row block of X with W
  (entry (p, q) is the sum over k of X[4000 t + p, k] * W[k, q]), and the two columns of that product's rows weighted by
  a0 and by a1 and summed over the 64 columns. The blocks tile the arrays (row r lies in block r / 4000), so X' is the
  reference's dot_general of X and W, and the two columns, read as vectors, are the reference's weighted row sums.
-/
import proofs.«419654_j62182536511730_3_alg».proof.Proof.Gen.KernelIdeal.Frame
import proofs.«419654_j62182536511730_3_alg».proof.Proof.Gen.ReferenceIdeal.Read
import proofs.«419654_j62182536511730_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Gat

open Cert.KernelIdeal Cert.KernelIdeal.Gen Idealize.ShloMosaic Idealize.ShloMosaic.TcCoe Idealize.SL.Sem Idealize.ShloMosaic.ValueIdx
open Idealize.ShloMosaic.Pipeline (Dat)
open Cert.ReferenceIdeal.Read (val_main_v0 val_main_v3 val_main_v6)

/-! The block product's index functions, axis by axis: the left operand is read at (row of the output, contraction
    index), the right one at (contraction index, column of the output). -/

theorem lhs_blockDot_0 (i : S4000x64.Idx) (q : dot_S4000x256_S256x64_S4000x64_1_0_0_1_n_n.contr.Idx) :
    (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
theorem lhs_blockDot_1 (i : S4000x64.Idx) (q : dot_S4000x256_S256x64_S4000x64_1_0_0_1_n_n.contr.Idx) :
    (dot_S4000x256_S256x64_S4000x64_1_0_0_1_n_n.lhsIdx i q 1).val = (q ⟨0, by decide⟩).val :=
  dot_S4000x256_S256x64_S4000x64_1_0_0_1_n_n.lhsIdx_val_of_single rfl i q
theorem rhs_blockDot_0 (i : S4000x64.Idx) (q : dot_S4000x256_S256x64_S4000x64_1_0_0_1_n_n.contr.Idx) :
    (dot_S4000x256_S256x64_S4000x64_1_0_0_1_n_n.rhsIdx i q 0).val = (q ⟨0, by decide⟩).val :=
  dot_S4000x256_S256x64_S4000x64_1_0_0_1_n_n.rhsIdx_val_of_single rfl i q
theorem rhs_blockDot_1 (i : S4000x64.Idx) (q : dot_S4000x256_S256x64_S4000x64_1_0_0_1_n_n.contr.Idx) :
    (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl

/-- The block product at row `p`, column `q`: the row of the left block against the column of the right one. -/
theorem blockDot_apply (x0 : Vec Ideal S4000x256 .f32) (x1 : Vec Ideal S256x64 .f32) (p : Fin 4000) (q : Fin 64) :
    k0_pay1 (F := Ideal) x0 x1 (ix2 p q) = ∑ k : Fin 256, x0 (ix2 p k) * x1 (ix2 k q) := by
  unfold k0_pay1
  show FloatOps.matmul dot_S4000x256_S256x64_S4000x64_1_0_0_1_n_n none (truncf .bf16 x0 bitsLt_bf16_f32 : FVec Ideal S4000x256 .bf16) (truncf .bf16 x1 bitsLt_bf16_f32 : FVec Ideal S256x64 .bf16) (constant S4000x64 .f32 0x00000000#32) (ix2 p q) = _
  rw [Ideal.matmul_constant_zero_apply, ← Equiv.sum_comp (ValueIdx.contrEquiv1 dot_S4000x256_S256x64_S4000x64_1_0_0_1_n_n 256 rfl rfl).symm]
  refine Finset.sum_congr rfl fun k _ => ?_
  have hk := ValueIdx.contrEquiv1_symm_val dot_S4000x256_S256x64_S4000x64_1_0_0_1_n_n 256 rfl rfl k
  have el : dot_S4000x256_S256x64_S4000x64_1_0_0_1_n_n.lhsIdx (ix2 p q) ((ValueIdx.contrEquiv1 dot_S4000x256_S256x64_S4000x64_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S4000x256_S256x64_S4000x64_1_0_0_1_n_n.rhsIdx (ix2 p q) ((ValueIdx.contrEquiv1 dot_S4000x256_S256x64_S4000x64_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-- The weighted row sums of the block product: row `p` of the product against the weight row, summed over the 64 columns. -/
theorem blockRowSum_apply (x0 : Vec Ideal S4000x256 .f32) (x1 : Vec Ideal S256x64 .f32) (x2 : Vec Ideal S1x64 .f32) (p : Fin 4000) (u : Fin 1) :
    k0_pay2 (F := Ideal) x0 x1 x2 (ix2 p u) = ∑ q : Fin 64, k0_pay1 (F := Ideal) x0 x1 (ix2 p q) * x2 (ix2 (0 : Fin 1) q) := by
  unfold k0_pay2
  refine (Keepdims.shapeCast_a_a1_apply _ _ p u).trans ?_
  refine (Keepdims.laneSum_apply _ _ _ _ _ p).trans ?_
  refine Finset.sum_congr rfl fun q _ => ?_
  rw [mulf_apply, broadcastTo_1b_ab_apply]

/-- The second weighted row sum is the first one's function, at the other weight row. -/
theorem blockRowSum'_eq (x0 : Vec Ideal S4000x256 .f32) (x1 : Vec Ideal S256x64 .f32) (x3 : Vec Ideal S1x64 .f32) :
    k0_pay3 (F := Ideal) x0 x1 x3 = k0_pay2 (F := Ideal) x0 x1 x3 := rfl

/-- The reference's product at row `r`, column `q`. -/
theorem refDot_apply (X : (⟨S100000x256, .f32⟩ : BufTy).Contents (Elt Ideal)) (W : (⟨S256x64, .f32⟩ : BufTy).Contents (Elt Ideal))
    (r : Fin 100000) (q : Fin 64) :
    val_main_v0 (F := Ideal) X W (ix2 r q) = ∑ k : Fin 256, X (ix2 r k) * W (ix2 k q) := by
  rw [Cert.ReferenceIdeal.Read.val_main_v0_apply]
  refine Finset.sum_congr rfl fun k _ => ?_
  have el : Cert.ReferenceIdeal.Read.lidx_main_v0 (ix2 r q) k = ix2 r k :=
    funext fun a => Fin.ext (by match a with | ⟨0, _⟩ => rfl | ⟨1, _⟩ => rfl)
  have er : Cert.ReferenceIdeal.Read.ridx_main_v0 (ix2 r q) k = ix2 k q :=
    funext fun a => Fin.ext (by match a with | ⟨0, _⟩ => rfl | ⟨1, _⟩ => rfl)
  rw [el, er]

/-- The reference's weighted row sum at row `r`. -/
theorem refRowSum_apply (X : (⟨S100000x256, .f32⟩ : BufTy).Contents (Elt Ideal)) (W : (⟨S256x64, .f32⟩ : BufTy).Contents (Elt Ideal))
    (A : (⟨S1x64, .f32⟩ : BufTy).Contents (Elt Ideal)) (r : Fin 100000) :
    val_main_v3 (F := Ideal) X W A (ix1 r) = ∑ q : Fin 64, val_main_v0 (F := Ideal) X W (ix2 r q) * A (ix2 (0 : Fin 1) q) := by
  rw [Cert.ReferenceIdeal.Read.val_main_v3_apply, Cert.ReferenceIdeal.Read.val_main_cst_apply]
  show Ideal.ofBits .f32 0x00000000#32 + _ = _
  rw [Ideal.ofBits_zero_f32, zero_add]
  refine Finset.sum_congr rfl fun q _ => ?_
  have e3 : Cert.ReferenceIdeal.Read.idx_main_v3 (ix1 r) q = ix2 r q :=
    funext fun a => Fin.ext (by match a with | ⟨0, _⟩ => rfl | ⟨1, _⟩ => rfl)
  have e1 : Cert.ReferenceIdeal.Read.idx_main_v1 (ix2 r q) = ix2 (0 : Fin 1) q :=
    funext fun a => Fin.ext (by match a with | ⟨0, _⟩ => rfl | ⟨1, _⟩ => rfl)
  rw [e3, Cert.ReferenceIdeal.Read.val_main_v2_apply, Cert.ReferenceIdeal.Read.val_main_v1_apply, e1]
  rfl

/-- The reference's second weighted row sum is the first one's function, at the other weight row. -/
theorem refRowSum'_eq (X : (⟨S100000x256, .f32⟩ : BufTy).Contents (Elt Ideal)) (W : (⟨S256x64, .f32⟩ : BufTy).Contents (Elt Ideal))
    (A : (⟨S1x64, .f32⟩ : BufTy).Contents (Elt Ideal)) :
    val_main_v6 (F := Ideal) X W A = val_main_v3 (F := Ideal) X W A := rfl

/-- One block against the whole arrays: when the left block holds rows `4000 b …` of `X` and the right block is `W`,
    the block product at `(p, q)` is the reference's product at row `4000 b + p`. -/
theorem blockDot_eq_ref (X : (⟨S100000x256, .f32⟩ : BufTy).Contents (Elt Ideal)) (W : (⟨S256x64, .f32⟩ : BufTy).Contents (Elt Ideal))
    (x0 : Vec Ideal S4000x256 .f32) (x1 : Vec Ideal S256x64 .f32) (b : ℕ)
    (h0 : ∀ (p : Fin 4000) (k : Fin 256) (r : Fin 100000), r.val = b * 4000 + p.val → x0 (ix2 p k) = X (ix2 r k))
    (h1 : ∀ (k : Fin 256) (q : Fin 64), x1 (ix2 k q) = W (ix2 k q))
    (p : Fin 4000) (q : Fin 64) (r : Fin 100000) (hr : r.val = b * 4000 + p.val) :
    k0_pay1 (F := Ideal) x0 x1 (ix2 p q) = val_main_v0 (F := Ideal) X W (ix2 r q) := by
  rw [blockDot_apply, refDot_apply]
  refine Finset.sum_congr rfl fun k _ => ?_
  rw [h0 p k r hr, h1 k q]

/-- The same for the weighted row sums, the weight block being the weight row `A`. -/
theorem blockRowSum_eq_ref (X : (⟨S100000x256, .f32⟩ : BufTy).Contents (Elt Ideal)) (W : (⟨S256x64, .f32⟩ : BufTy).Contents (Elt Ideal))
    (A : (⟨S1x64, .f32⟩ : BufTy).Contents (Elt Ideal))
    (x0 : Vec Ideal S4000x256 .f32) (x1 : Vec Ideal S256x64 .f32) (x2 : Vec Ideal S1x64 .f32) (b : ℕ)
    (h0 : ∀ (p : Fin 4000) (k : Fin 256) (r : Fin 100000), r.val = b * 4000 + p.val → x0 (ix2 p k) = X (ix2 r k))
    (h1 : ∀ (k : Fin 256) (q : Fin 64), x1 (ix2 k q) = W (ix2 k q))
    (h2 : ∀ q : Fin 64, x2 (ix2 (0 : Fin 1) q) = A (ix2 (0 : Fin 1) q))
    (p : Fin 4000) (u : Fin 1) (r : Fin 100000) (hr : r.val = b * 4000 + p.val) :
    k0_pay2 (F := Ideal) x0 x1 x2 (ix2 p u) = val_main_v3 (F := Ideal) X W A (ix1 r) := by
  rw [blockRowSum_apply, refRowSum_apply]
  refine Finset.sum_congr rfl fun q _ => ?_
  rw [blockDot_eq_ref X W x0 x1 b h0 h1 p q r hr, h2 q]

/-- The zero offset of a whole-block access. -/
theorem origin2 : (![0, 0] : Fin 2 → Nat) = fun _ => 0 := funext fun a => by fin_cases a <;> rfl

/-- The block index of every window at every one of the 25 points: the row blocks of `X` and of the three outputs move
    with the point, the weight arrays stay whole. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The block of `X` at point `t` holds rows `4000 t …` of `X`. -/
theorem xBlock_apply (c : Dev nD) (t : Fin cfg0.N) (p : Fin 4000) (k : Fin 256) (r : Fin 100000) (hr : r.val = t.val * 4000 + p.val) :
    (iblk0 V c 0 t : Vec Ideal S4000x256 .f32) (ix2 p k) = (V c main_arg0 : S100000x256.Idx → Elt Ideal .f32) (ix2 r k) := by
  obtain ⟨e0, e1, -⟩ := blockIndex t
  show V c main_arg0 (((cfg0.win 0).blk t).view.emb (ix2 p k)) = _
  refine congrArg _ (funext fun a => Fin.ext ?_)
  match a with
  | ⟨0, _⟩ => show win0_0.index t (0 : Fin 2) * 4000 + 1 * p.val = r.val; omega
  | ⟨1, _⟩ => show win0_0.index t (1 : Fin 2) * 256 + 1 * k.val = k.val; omega

/-- The block of `W` at any point is `W`. -/
theorem wBlock_apply (c : Dev nD) (t : Fin cfg0.N) (k : Fin 256) (q : Fin 64) :
    (iblk0 V c 1 t : Vec Ideal S256x64 .f32) (ix2 k q) = (V c main_arg1 : S256x64.Idx → Elt Ideal .f32) (ix2 k q) := by
  obtain ⟨-, -, e0, e1, -⟩ := blockIndex t
  show V c main_arg1 (((cfg0.win 1).blk t).view.emb (ix2 k q)) = _
  refine congrArg _ (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- The block of the first weight row at any point is the row. -/
theorem a0Block_apply (c : Dev nD) (t : Fin cfg0.N) (q : Fin 64) :
    (iblk0 V c 2 t : Vec Ideal S1x64 .f32) (ix2 (0 : Fin 1) q) = (V c main_arg2 : S1x64.Idx → Elt Ideal .f32) (ix2 (0 : Fin 1) q) := by
  obtain ⟨-, -, -, -, e0, e1, -⟩ := blockIndex t
  show V c main_arg2 (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- The block of the second weight row at any point is the row. -/
theorem a1Block_apply (c : Dev nD) (t : Fin cfg0.N) (q : Fin 64) :
    (iblk0 V c 3 t : Vec Ideal S1x64 .f32) (ix2 (0 : Fin 1) q) = (V c main_arg3 : S1x64.Idx → Elt Ideal .f32) (ix2 (0 : Fin 1) q) := by
  obtain ⟨-, -, -, -, -, -, e0, e1, -⟩ := blockIndex t
  show V c main_arg3 (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- What point `t` writes back to `X'` is its block of the reference's product of `X` and `W`. -/
theorem xp_flushed (c : Dev nD) (t : Fin cfg0.N) :
    (dat0 V c).flushed 4 t = ((cfg0.win 4).blk t).view.read (Elt Ideal) (val_main_v0 (F := Ideal) (V c main_arg0) (V c main_arg1)) := by
  show (cfg0.win 4).cut (grid0.coords t) ((dat0 V c).after 4 t) = _
  rw [after0_4]
  unfold out0_4
  rw [View.canon_unit_zero origin2]
  simp only [View.ld_unit_zero (S := S4000x256) origin2, View.ld_unit_zero (S := S256x64) origin2]
  funext j
  obtain ⟨p, q, rfl⟩ : ∃ (p : Fin 4000) (q : Fin 64), j = ix2 p q := ⟨j 0, j 1, eq_ix2 j⟩
  have hN : cfg0.N = 25 := N_0
  have hr : t.val * 4000 + p.val < 100000 := by have := t.isLt; omega
  obtain ⟨-, -, -, -, -, -, -, -, e0, e1, -⟩ := blockIndex t
  have he : ((cfg0.win 4).blk t).view.emb (ix2 p q) = ix2 (⟨t.val * 4000 + p.val, hr⟩ : Fin 100000) q := funext fun a => Fin.ext (by
    match a with
    | ⟨0, _⟩ => show win0_4.index t (0 : Fin 2) * 4000 + 1 * p.val = t.val * 4000 + p.val; omega
    | ⟨1, _⟩ => show win0_4.index t (1 : Fin 2) * 64 + 1 * q.val = q.val; omega)
  show k0_pay1 (F := Ideal) (iblk0 V c 0 t) (iblk0 V c 1 t) (ix2 p q) = val_main_v0 (F := Ideal) (V c main_arg0) (V c main_arg1) (((cfg0.win 4).blk t).view.emb (ix2 p q))
  rw [he]
  exact blockDot_eq_ref (V c main_arg0) (V c main_arg1) (iblk0 V c 0 t) (iblk0 V c 1 t) t.val
    (fun p k r hr => xBlock_apply V c t p k r hr) (fun k q => wBlock_apply V c t k q) p q _ rfl

/-- An index of a point's block of `X'`: each coordinate in the block's range on its axis. -/
theorem mem_xpBlock (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v0_0).slice (win0_4.rect t)).set ↔ _
  rw [View.set_slice_whole, Rect.mem_set_unit]
  exact Iff.rfl

/-- Row `r` of `X'` is in the block of point `r / 4000`. -/
theorem xp_cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 25 := N_0
  have ht : (i 0).val / 4000 < cfg0.N := by rw [hN]; omega
  obtain ⟨-, -, -, -, -, -, -, -, e0, e1, -⟩ := blockIndex ⟨(i 0).val / 4000, ht⟩
  refine ⟨⟨(i 0).val / 4000, ht⟩, flush0_4 _, ?_⟩
  rw [mem_xpBlock]
  intro a
  match a with
  | ⟨0, _⟩ =>
    show win0_4.index ⟨(i 0).val / 4000, ht⟩ (0 : Fin 2) * 4000 ≤ (i 0).val ∧ (i 0).val < win0_4.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_4.index ⟨(i 0).val / 4000, ht⟩ (1 : Fin 2) * 64 ≤ (i 1).val ∧ (i 1).val < win0_4.index ⟨(i 0).val / 4000, ht⟩ (1 : Fin 2) * 64 + 64
    rw [e1]; omega

theorem xp_array (c : Dev nD) : (dat0 V c).arrAt 4 cfg0.N = Cert.ReferenceIdeal.Read.val_main_v0 (V c main_arg0) (V c main_arg1) :=
  (dat0 V c).arrAt_eq_of_cover 4 _ (fun t _ => xp_flushed V c t) xp_cover

/-- The row of an index of a column `[100000, 1]`, as an index of the vector `[100000]`. -/
abbrev colRow (i : S100000x1.Idx) : S100000.Idx := fun a => match a with
  | ⟨0, _⟩ => ⟨(i 0).val, (i 0).isLt⟩

/-- A column that holds a vector's entries by row, cast to a vector, is the vector. -/
theorem shapeCast_colRow (f : S100000.Idx → Elt Ideal .f32) :
    shapeCast S100000 (fun i : S100000x1.Idx => f (colRow i)) shapeCasts_S100000x1_S100000 = f := by
  funext j
  obtain ⟨r, rfl⟩ : ∃ r : Fin 100000, j = ix1 r := ⟨j 0, eq_ix1 j⟩
  refine (shapeCast_apply _ shapeCasts_S100000x1_S100000 (ix1 r) (ix2 r (0 : Fin 1)) ?_).trans ?_
  · rw [Shape.rowMajor_val_two, Shape.rowMajor_val_one]
    show r.val * 1 + 0 = r.val
    omega
  · exact congrArg f (funext fun a => Fin.ext (by match a with | ⟨0, _⟩ => rfl))

/-- What point `t` writes back to the s0 column is its block of the reference's weighted row sums, read by row. -/
theorem s0_flushed (c : Dev nD) (t : Fin cfg0.N) :
    (dat0 V c).flushed 5 t = ((cfg0.win 5).blk t).view.read (Elt Ideal)
      (fun i : S100000x1.Idx => val_main_v3 (F := Ideal) (V c main_arg0) (V c main_arg1) (V c main_arg2) (colRow i)) := by
  show (cfg0.win 5).cut (grid0.coords t) ((dat0 V c).after 5 t) = _
  rw [after0_5]
  unfold out0_5
  rw [View.canon_unit_zero origin2]
  simp only [View.ld_unit_zero (S := S4000x256) origin2, View.ld_unit_zero (S := S256x64) origin2, View.ld_unit_zero (S := S1x64) origin2]
  funext j
  obtain ⟨p, u, rfl⟩ : ∃ (p : Fin 4000) (u : Fin 1), j = ix2 p u := ⟨j 0, j 1, eq_ix2 j⟩
  have hN : cfg0.N = 25 := N_0
  have hr : t.val * 4000 + p.val < 100000 := by have := t.isLt; omega
  obtain ⟨-, -, -, -, -, -, -, -, -, -, e0, e1, _⟩ := blockIndex t
  have he : colRow (((cfg0.win 5).blk t).view.emb (ix2 p u)) = ix1 (⟨t.val * 4000 + p.val, hr⟩ : Fin 100000) := funext fun a => Fin.ext (by
    match a with
    | ⟨0, _⟩ => show win0_5.index t (0 : Fin 2) * 4000 + 1 * p.val = t.val * 4000 + p.val; omega)
  show k0_pay2 (F := Ideal) (iblk0 V c 0 t) (iblk0 V c 1 t) (iblk0 V c 2 t) (ix2 p u)
    = val_main_v3 (F := Ideal) (V c main_arg0) (V c main_arg1) (V c main_arg2) (colRow (((cfg0.win 5).blk t).view.emb (ix2 p u)))
  rw [he]
  exact blockRowSum_eq_ref (V c main_arg0) (V c main_arg1) (V c main_arg2) (iblk0 V c 0 t) (iblk0 V c 1 t) (iblk0 V c 2 t) t.val
    (fun p k r hr => xBlock_apply V c t p k r hr) (fun k q => wBlock_apply V c t k q) (fun q => a0Block_apply V c t q) p u _ rfl

/-- An index of a point's block of the s0 column: each coordinate in the block's range on its axis. -/
theorem mem_s0Block (t : Fin cfg0.N) (i : S100000x1.Idx) :
    i ∈ ((cfg0.win 5).blk t).view.set ↔ ∀ a : Fin 2, win0_5.index t a * S4000x1.size a ≤ (i a).val ∧ (i a).val < win0_5.index t a * S4000x1.size a + S4000x1.size a := by
  show i ∈ ((View.whole main_v0_1).slice (win0_5.rect t)).set ↔ _
  rw [View.set_slice_whole, Rect.mem_set_unit]
  exact Iff.rfl

/-- Row `r` of the s0 column is in the block of point `r / 4000`. -/
theorem s0_cover (i : S100000x1.Idx) : ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 25 := N_0
  have ht : (i 0).val / 4000 < cfg0.N := by rw [hN]; omega
  obtain ⟨-, -, -, -, -, -, -, -, -, -, e0, e1, _⟩ := blockIndex ⟨(i 0).val / 4000, ht⟩
  refine ⟨⟨(i 0).val / 4000, ht⟩, flush0_5 _, ?_⟩
  rw [mem_s0Block]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, ht⟩ (1 : Fin 2) * 1 ≤ (i 1).val ∧ (i 1).val < win0_5.index ⟨(i 0).val / 4000, ht⟩ (1 : Fin 2) * 1 + 1
    rw [e1]; omega

/-- What point `t` writes back to the s1 column is its block of the reference's weighted row sums, read by row. -/
theorem s1_flushed (c : Dev nD) (t : Fin cfg0.N) :
    (dat0 V c).flushed 6 t = ((cfg0.win 6).blk t).view.read (Elt Ideal)
      (fun i : S100000x1.Idx => val_main_v3 (F := Ideal) (V c main_arg0) (V c main_arg1) (V c main_arg3) (colRow i)) := by
  show (cfg0.win 6).cut (grid0.coords t) ((dat0 V c).after 6 t) = _
  rw [after0_6]
  unfold out0_6
  rw [View.canon_unit_zero origin2]
  simp only [View.ld_unit_zero (S := S4000x256) origin2, View.ld_unit_zero (S := S256x64) origin2, View.ld_unit_zero (S := S1x64) origin2]
  funext j
  obtain ⟨p, u, rfl⟩ : ∃ (p : Fin 4000) (u : Fin 1), j = ix2 p u := ⟨j 0, j 1, eq_ix2 j⟩
  have hN : cfg0.N = 25 := N_0
  have hr : t.val * 4000 + p.val < 100000 := by have := t.isLt; omega
  obtain ⟨-, -, -, -, -, -, -, -, -, -, -, -, e0, e1⟩ := blockIndex t
  have he : colRow (((cfg0.win 6).blk t).view.emb (ix2 p u)) = ix1 (⟨t.val * 4000 + p.val, hr⟩ : Fin 100000) := funext fun a => Fin.ext (by
    match a with
    | ⟨0, _⟩ => show win0_6.index t (0 : Fin 2) * 4000 + 1 * p.val = t.val * 4000 + p.val; omega)
  show k0_pay3 (F := Ideal) (iblk0 V c 0 t) (iblk0 V c 1 t) (iblk0 V c 3 t) (ix2 p u)
    = val_main_v3 (F := Ideal) (V c main_arg0) (V c main_arg1) (V c main_arg3) (colRow (((cfg0.win 6).blk t).view.emb (ix2 p u)))
  rw [he]
  exact blockRowSum_eq_ref (V c main_arg0) (V c main_arg1) (V c main_arg3) (iblk0 V c 0 t) (iblk0 V c 1 t) (iblk0 V c 3 t) t.val
    (fun p k r hr => xBlock_apply V c t p k r hr) (fun k q => wBlock_apply V c t k q) (fun q => a1Block_apply V c t q) p u _ rfl

/-- An index of a point's block of the s1 column: each coordinate in the block's range on its axis. -/
theorem mem_s1Block (t : Fin cfg0.N) (i : S100000x1.Idx) :
    i ∈ ((cfg0.win 6).blk t).view.set ↔ ∀ a : Fin 2, win0_6.index t a * S4000x1.size a ≤ (i a).val ∧ (i a).val < win0_6.index t a * S4000x1.size a + S4000x1.size a := by
  show i ∈ ((View.whole main_v0_2).slice (win0_6.rect t)).set ↔ _
  rw [View.set_slice_whole, Rect.mem_set_unit]
  exact Iff.rfl

/-- Row `r` of the s1 column is in the block of point `r / 4000`. -/
theorem s1_cover (i : S100000x1.Idx) : ∃ t : Fin cfg0.N, (cfg0.win 6).flush t = true ∧ i ∈ ((cfg0.win 6).blk t).view.set := by
  have hi0 : (i 0).val < 100000 := (i 0).isLt
  have hi1 : (i 1).val < 1 := (i 1).isLt
  have hN : cfg0.N = 25 := N_0
  have ht : (i 0).val / 4000 < cfg0.N := by rw [hN]; omega
  obtain ⟨-, -, -, -, -, -, -, -, -, -, -, -, e0, e1⟩ := blockIndex ⟨(i 0).val / 4000, ht⟩
  refine ⟨⟨(i 0).val / 4000, ht⟩, flush0_6 _, ?_⟩
  rw [mem_s1Block]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, ht⟩ (1 : Fin 2) * 1 ≤ (i 1).val ∧ (i 1).val < win0_6.index ⟨(i 0).val / 4000, ht⟩ (1 : Fin 2) * 1 + 1
    rw [e1]; omega

theorem s0_array (c : Dev nD) : shapeCast S100000 ((dat0 V c).arrAt 5 cfg0.N) shapeCasts_S100000x1_S100000
    = Cert.ReferenceIdeal.Read.val_main_v3 (V c main_arg0) (V c main_arg1) (V c main_arg2) := by
  rw [(dat0 V c).arrAt_eq_of_cover 5 _ (fun t _ => s0_flushed V c t) s0_cover]
  exact shapeCast_colRow _

theorem s1_array (c : Dev nD) : shapeCast S100000 ((dat0 V c).arrAt 6 cfg0.N) shapeCasts_S100000x1_S100000
    = Cert.ReferenceIdeal.Read.val_main_v6 (V c main_arg0) (V c main_arg1) (V c main_arg3) := by
  rw [(dat0 V c).arrAt_eq_of_cover 6 _ (fun t _ => s1_flushed V c t) s1_cover, refRowSum'_eq]
  exact shapeCast_colRow _

end Cert.Gat

end
-- ==== Proof.ScoreBlock.lean ====
/-
  What the second kernel launch leaves in its output array, as a whole array.
  The launch has a single grid point, and each of its three windows is the whole [12500,128] array at block
  index (0,0): a block element sits in the array at its own index, so each input block is the input array itself,
  the written-back block is the stored payload itself, and that one block covers every index of the output.
  Hence the output array ends as the payload function of the two input arrays as the launch finds them.
-/
import proofs.«419654_j62182536511730_3_alg».proof.Proof.Gen.KernelIdeal.Frame
import Idealize.ShloMosaic.Lib.Pipeline.Value

noncomputable section

namespace Cert.Gat

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The store's offset (0, 0) is the zero offset. -/
private theorem score_hz : (![0, 0] : Fin 2 → Nat) = fun _ => 0 := funext fun a => by fin_cases a <;> rfl

/-- Every window's block index is 0 on both axes, at every grid point (decided over the one-point grid). -/
private theorem score_idx : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- An element of window 0's block sits in the array at its own index: block index * block size + coordinate,
    with block index 0 on each axis. -/
private theorem score_emb0 (t : Fin cfg1.N) (j : S12500x128.Idx) : ((cfg1.win 0).blk t).view.emb j = j := by
  obtain ⟨e0, e1, e2, e3, e4, e5⟩ := score_idx t
  funext a; apply Fin.ext
  match a with
  | ⟨0, _⟩ => show win1_0.index t (0 : Fin 2) * 12500 + 1 * (j 0).val = (j 0).val; omega
  | ⟨1, _⟩ => show win1_0.index t (1 : Fin 2) * 128 + 1 * (j 1).val = (j 1).val; omega

/-- The same for window 1. -/
private theorem score_emb1 (t : Fin cfg1.N) (j : S12500x128.Idx) : ((cfg1.win 1).blk t).view.emb j = j := by
  obtain ⟨e0, e1, e2, e3, e4, e5⟩ := score_idx t
  funext a; apply Fin.ext
  match a with
  | ⟨0, _⟩ => show win1_1.index t (0 : Fin 2) * 12500 + 1 * (j 0).val = (j 0).val; omega
  | ⟨1, _⟩ => show win1_1.index t (1 : Fin 2) * 128 + 1 * (j 1).val = (j 1).val; omega

/-- The same for the output window 2. -/
private theorem score_emb2 (t : Fin cfg1.N) (j : S12500x128.Idx) : ((cfg1.win 2).blk t).view.emb j = j := by
  obtain ⟨e0, e1, e2, e3, e4, e5⟩ := score_idx t
  funext a; apply Fin.ext
  match a with
  | ⟨0, _⟩ => show win1_2.index t (0 : Fin 2) * 12500 + 1 * (j 0).val = (j 0).val; omega
  | ⟨1, _⟩ => show win1_2.index t (1 : Fin 2) * 128 + 1 * (j 1).val = (j 1).val; omega

/-- Input window 0's block is its whole array as the launch finds it. -/
private theorem score_iblk0 (c : Dev nD) (t : Fin cfg1.N) : iblk1 V c 0 t = V c main_v5 := by
  funext j
  show V c main_v5 (((cfg1.win 0).blk t).view.emb j) = V c main_v5 j
  rw [score_emb0]

/-- Input window 1's block is its whole array as the launch finds it. -/
private theorem score_iblk1 (c : Dev nD) (t : Fin cfg1.N) : iblk1 V c 1 t = V c main_v6 := by
  funext j
  show V c main_v6 (((cfg1.win 1).blk t).view.emb j) = V c main_v6 j
  rw [score_emb1]

/-- For ANY contents `G` of the output's staging buffer, what is written back is `G` read through the point's
    block: the window is uncut and the block is the whole array. Stated over a variable so that the payload
    is never opened. -/
private theorem score_cut_read (t : Fin cfg1.N) (G : Vec F S12500x128 .f32) :
    (cfg1.win 2).cut (grid1.coords t) G = ((cfg1.win 2).blk t).view.read (Elt F) G := by
  funext j
  show G j = G (((cfg1.win 2).blk t).view.emb j)
  rw [score_emb2]

/-- What a grid point writes back is its block of the payload of the two input arrays. -/
private theorem score_flushed (c : Dev nD) (t : Fin cfg1.N) :
    (dat1 V c).flushed 2 t = ((cfg1.win 2).blk t).view.read (Elt F) (k1_pay1 (V c main_v5) (V c main_v6)) := by
  show (cfg1.win 2).cut (grid1.coords t) ((dat1 V c).after 2 t) = _
  rw [after1_2]
  unfold out1_2
  rw [View.canon_unit_zero score_hz]
  simp only [View.ld_unit_zero (S := S12500x128) score_hz]
  rw [score_iblk0, score_iblk1]
  exact score_cut_read t _

/-- An index of the array is in a point's output block iff each coordinate is in the block's range on its axis. -/
private theorem score_mem_blk (t : Fin cfg1.N) (i : S12500x128.Idx) :
    i ∈ ((cfg1.win 2).blk t).view.set ↔ ∀ a : Fin 2, win1_2.index t a * S12500x128.size a ≤ (i a).val ∧ (i a).val < win1_2.index t a * S12500x128.size a + S12500x128.size a := by
  show i ∈ ((View.whole main_v7).slice (win1_2.rect t)).set ↔ _
  rw [View.set_slice_whole, Rect.mem_set_unit]
  exact Iff.rfl

/-- THE OUTPUT ARRAY after the second launch: the payload of the two input arrays as the launch finds them, at
    every index (the one point's block covers the array). -/
theorem att_array (c : Dev nD) : (dat1 V c).arrAt 2 cfg1.N = k1_pay1 (V c main_v5) (V c main_v6) := by
  refine (dat1 V c).arrAt_eq_of_cover 2 (k1_pay1 (V c main_v5) (V c main_v6)) (fun t _ => score_flushed V c t) fun i => ?_
  refine ⟨t1_0, flush1_2 t1_0, ?_⟩
  rw [score_mem_blk]
  obtain ⟨e0, e1, e2, e3, e4, e5⟩ := score_idx t1_0
  have hi0 : (i 0).val < 12500 := (i 0).isLt
  have hi1 : (i 1).val < 128 := (i 1).isLt
  intro a
  match a with
  | ⟨0, _⟩ => show win1_2.index t1_0 (0 : Fin 2) * 12500 ≤ (i 0).val ∧ (i 0).val < win1_2.index t1_0 (0 : Fin 2) * 12500 + 12500; omega
  | ⟨1, _⟩ => show win1_2.index t1_0 (1 : Fin 2) * 128 ≤ (i 1).val ∧ (i 1).val < win1_2.index t1_0 (1 : Fin 2) * 128 + 128; omega

end Cert.Gat

end
-- ==== Proof.ScoreFlat.lean ====
/-
  The score kernel's body on the [12500, 128] layout of two edge vectors, flattened back, is the edge score of the
  two vectors. Pointwise, the rectified sum on the grid at (r, l) is the flat rectified sum at e = 128 r + l. The kernel's
  minimum over rows of the minima over lanes (from +∞) and the reference's minimum over all 1600000 edges are the minimum
  of one family re-indexed by the bijection (r, l) ↔ 128 r + l, in any linear order; likewise the maxima (from -∞). Hence
  exp ((x - min) / (max - min)) agrees index by index.
-/
import proofs.«419654_j62182536511730_3_alg».proof.Proof.Gen.KernelIdeal.Skeleton
import proofs.«419654_j62182536511730_3_alg».proof.Proof.Spec
import proofs.«419654_j62182536511730_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Gat

open Cert.KernelIdeal Cert.KernelIdeal.Gen Idealize.ShloMosaic Idealize.ShloMosaic.ValueIdx

/-- In a linear order the minimum, from any start, of the row minima of a doubly indexed family is the minimum of any
    singly indexed family with the same values. -/
private theorem fold_min_rows {α : Type} [LinearOrder α] {ι κ σ : Type} [Fintype ι] [Fintype κ] [Fintype σ] (t : α)
    (f : ι → κ → α) (g : σ → α) (h1 : ∀ r l, ∃ e, g e = f r l) (h2 : ∀ e, ∃ r l, g e = f r l) :
    Finset.univ.fold min t (fun r => Finset.univ.fold min t (f r)) = Finset.univ.fold min t g := by
  refine eq_of_forall_le_iff fun c => ?_
  simp only [Finset.le_fold_min, Finset.mem_univ, forall_true_left]
  constructor
  · rintro ⟨ht, h⟩
    refine ⟨ht, fun e => ?_⟩
    obtain ⟨r, l, he⟩ := h2 e
    rw [he]; exact (h r).2 l
  · rintro ⟨ht, h⟩
    refine ⟨ht, fun r => ⟨ht, fun l => ?_⟩⟩
    obtain ⟨e, he⟩ := h1 r l
    rw [← he]; exact h e

/-- The mirror for maxima. -/
private theorem fold_max_rows {α : Type} [LinearOrder α] {ι κ σ : Type} [Fintype ι] [Fintype κ] [Fintype σ] (t : α)
    (f : ι → κ → α) (g : σ → α) (h1 : ∀ r l, ∃ e, g e = f r l) (h2 : ∀ e, ∃ r l, g e = f r l) :
    Finset.univ.fold max t (fun r => Finset.univ.fold max t (f r)) = Finset.univ.fold max t g := by
  refine eq_of_forall_ge_iff fun c => ?_
  simp only [Finset.fold_max_le, Finset.mem_univ, forall_true_left]
  constructor
  · rintro ⟨ht, h⟩
    refine ⟨ht, fun e => ?_⟩
    obtain ⟨r, l, he⟩ := h2 e
    rw [he]; exact (h r).2 l
  · rintro ⟨ht, h⟩
    refine ⟨ht, fun r => ⟨ht, fun l => ?_⟩⟩
    obtain ⟨e, he⟩ := h1 r l
    rw [← he]; exact h e

/-- A lane minimum of an [a, b] array over its second axis reads at row r as the minimum over the row. -/
private theorem laneMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = Finset.univ.fold min (Ideal.ofBits φ acc) (fun k : Fin b => src (ix2 r k)) := by
  rw [multiReduction_minimumf_eq_fold]
  refine (h.fold_filter_drop_single _ _ src (ix1 r)).trans ?_
  refine congrArg (Finset.fold min (Ideal.ofBits φ acc) · Finset.univ) (funext fun k => ?_)
  refine congrArg src (funext fun ax => Fin.ext ?_)
  rw [Shape.Reduces.lift_val]
  match ax with
  | ⟨0, _⟩ => rfl
  | ⟨1, _⟩ => rfl

/-- The mirror of the lane minimum for the lane maximum. -/
private theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = Finset.univ.fold max (Ideal.ofBits φ acc) (fun k : Fin b => src (ix2 r k)) := by
  rw [multiReduction_maximumf_eq_fold]
  refine (h.fold_filter_drop_single _ _ src (ix1 r)).trans ?_
  refine congrArg (Finset.fold max (Ideal.ofBits φ acc) · Finset.univ) (funext fun k => ?_)
  refine congrArg src (funext fun ax => Fin.ext ?_)
  rw [Shape.Reduces.lift_val]
  match ax with
  | ⟨0, _⟩ => rfl
  | ⟨1, _⟩ => rfl

/-- A minimum of an [a, 1] column over its first axis reads as the minimum over the rows. -/
private theorem colMin_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.minimumf.neutral φ hφ) (u : Fin 1) :
    multiReduction .minimumf [0] ⟨1, ![1]⟩ src acc h hφ hacc (ix1 u)
      = Finset.univ.fold min (Ideal.ofBits φ acc) (fun k : Fin a => src (ix2 k (0 : Fin 1))) := by
  obtain rfl : u = 0 := Subsingleton.elim _ _
  rw [multiReduction_minimumf_eq_fold]
  refine (h.fold_filter_drop_single _ _ src (ix1 0)).trans ?_
  refine congrArg (Finset.fold min (Ideal.ofBits φ acc) · Finset.univ) (funext fun k => ?_)
  refine congrArg src (funext fun ax => Fin.ext ?_)
  rw [Shape.Reduces.lift_val]
  match ax with
  | ⟨0, _⟩ => rfl
  | ⟨1, _⟩ => rfl

/-- The mirror for the column maximum. -/
private theorem colMax_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.maximumf.neutral φ hφ) (u : Fin 1) :
    multiReduction .maximumf [0] ⟨1, ![1]⟩ src acc h hφ hacc (ix1 u)
      = Finset.univ.fold max (Ideal.ofBits φ acc) (fun k : Fin a => src (ix2 k (0 : Fin 1))) := by
  obtain rfl : u = 0 := Subsingleton.elim _ _
  rw [multiReduction_maximumf_eq_fold]
  refine (h.fold_filter_drop_single _ _ src (ix1 0)).trans ?_
  refine congrArg (Finset.fold max (Ideal.ofBits φ acc) · Finset.univ) (funext fun k => ?_)
  refine congrArg src (funext fun ax => Fin.ext ?_)
  rw [Shape.Reduces.lift_val]
  match ax with
  | ⟨0, _⟩ => rfl
  | ⟨1, _⟩ => rfl

/-- A [1, 1] array broadcast to [a, b] reads its one element everywhere. -/
private theorem bcast11_apply {α : Type} {a b : ℕ} (v : (⟨2, ![1, 1]⟩ : Shape).Idx → α) (h : (⟨2, ![1, 1]⟩ : Shape).Broadcasts ⟨2, ![a, b]⟩)
    (j : (⟨2, ![a, b]⟩ : Shape).Idx) : broadcastTo ⟨2, ![a, b]⟩ v h j = v (ix2 (0 : Fin 1) (0 : Fin 1)) :=
  broadcastTo_apply v h j (ix2 (0 : Fin 1) (0 : Fin 1)) fun ax => match ax with
    | ⟨0, _⟩ => rfl
    | ⟨1, _⟩ => rfl

/-- The kernel's global minimum, kept as a [1, 1] array: the minimum over the rows of the row minima. -/
private theorem kernMin_eq (V : FVec Ideal S12500x128 .f32) :
    shapeCast S1x1 (multiReduction .minimumf [0] S1 (shapeCast S12500x1
        (multiReduction .minimumf [1] S12500 V 0x7F800000#32 reduces_S12500x128_S12500 (.inl rfl) rfl) shapeCasts_S12500_S12500x1)
        0x7F800000#32 reduces_S12500x1_S1 (.inl rfl) rfl) shapeCasts_S1_S1x1 (ix2 (0 : Fin 1) (0 : Fin 1))
      = Finset.univ.fold min (Ideal.ofBits .f32 0x7F800000#32) (fun r : Fin 12500 =>
          Finset.univ.fold min (Ideal.ofBits .f32 0x7F800000#32) (fun l : Fin 128 => V (ix2 r l))) := by
  refine (Keepdims.shapeCast_a_a1_apply _ _ _ _).trans ?_
  refine (colMin_apply _ _ _ _ _ _).trans ?_
  refine congrArg (Finset.fold min (Ideal.ofBits .f32 0x7F800000#32) · Finset.univ) (funext fun r => ?_)
  refine (Keepdims.shapeCast_a_a1_apply _ _ _ _).trans ?_
  exact laneMin_apply _ _ _ _ _ _

/-- The kernel's global maximum likewise. -/
private theorem kernMax_eq (V : FVec Ideal S12500x128 .f32) :
    shapeCast S1x1 (multiReduction .maximumf [0] S1 (shapeCast S12500x1
        (multiReduction .maximumf [1] S12500 V 0xFF800000#32 reduces_S12500x128_S12500 (.inl rfl) rfl) shapeCasts_S12500_S12500x1)
        0xFF800000#32 reduces_S12500x1_S1 (.inl rfl) rfl) shapeCasts_S1_S1x1 (ix2 (0 : Fin 1) (0 : Fin 1))
      = Finset.univ.fold max (Ideal.ofBits .f32 0xFF800000#32) (fun r : Fin 12500 =>
          Finset.univ.fold max (Ideal.ofBits .f32 0xFF800000#32) (fun l : Fin 128 => V (ix2 r l))) := by
  refine (Keepdims.shapeCast_a_a1_apply _ _ _ _).trans ?_
  refine (colMax_apply _ _ _ _ _ _).trans ?_
  refine congrArg (Finset.fold max (Ideal.ofBits .f32 0xFF800000#32) · Finset.univ) (funext fun r => ?_)
  refine (Keepdims.shapeCast_a_a1_apply _ _ _ _).trans ?_
  exact laneMax_apply _ _ _ _ _ _

/-- The reference's minimum over all edges is the minimum of the edge family. -/
private theorem minAll_apply (R : FVec Ideal S1600000 .f32) (j : S_.Idx) :
    minAll R j = Finset.univ.fold min (Ideal.ofBits .f32 0x7F800000#32) R := by
  unfold minAll
  rw [Host.reduce_eq_fold, Finset.filter_true_of_mem fun i _ => funext fun b => b.elim0]
  rfl

/-- The reference's maximum over all edges likewise. -/
private theorem maxAll_apply (R : FVec Ideal S1600000 .f32) (j : S_.Idx) :
    maxAll R j = Finset.univ.fold max (Ideal.ofBits .f32 0xFF800000#32) R := by
  unfold maxAll
  rw [Host.reduce_eq_fold, Finset.filter_true_of_mem fun i _ => funext fun b => b.elim0]
  rfl

private theorem flat_lt (r : Fin 12500) (l : Fin 128) : r.val * 128 + l.val < 1600000 := by
  have := r.isLt; have := l.isLt; omega

/-- The [12500, 128] layout of a flat vector reads, at (r, l), the vector at 128 r + l. -/
private theorem toGrid_apply {α : Type} (x : S1600000.Idx → α) (r : Fin 12500) (l : Fin 128) :
    shapeCast S12500x128 x shapeCasts_S1600000_S12500x128 (ix2 r l) = x (ix1 ⟨r.val * 128 + l.val, flat_lt r l⟩) :=
  shapeCast_apply x _ _ _ (by rw [Shape.rowMajor_val_two, Shape.rowMajor_val_one]; rfl)

/-- Flattening a [12500, 128] array reads, at 128 r + l, the array at (r, l). -/
private theorem toFlat_apply {α : Type} (x : S12500x128.Idx → α) (r : Fin 12500) (l : Fin 128) :
    shapeCast S1600000 x shapeCasts_S12500x128_S1600000 (ix1 ⟨r.val * 128 + l.val, flat_lt r l⟩) = x (ix2 r l) :=
  shapeCast_apply x _ _ _ (by rw [Shape.rowMajor_val_two, Shape.rowMajor_val_one]; rfl)

/-- The leaky rectifier on the [12500, 128] layout, as the kernel spells it. -/
private def gridLeaky (z : FVec Ideal S12500x128 .f32) : FVec Ideal S12500x128 .f32 :=
  select (cmpf .ogt z (broadcast S12500x128 (Scalar.ofBits .f32 0x00000000#32))) z
    (mulf (broadcast S12500x128 (Scalar.ofBits .f32 0x3E4CCCCD#32)) z)

/-- The kernel's global minimum of a [12500, 128] array, kept as a [1, 1] array. -/
private def kmin (V : FVec Ideal S12500x128 .f32) : FVec Ideal S1x1 .f32 :=
  shapeCast S1x1 (multiReduction .minimumf [0] S1 (shapeCast S12500x1
    (multiReduction .minimumf [1] S12500 V 0x7F800000#32 reduces_S12500x128_S12500 (.inl rfl) rfl) shapeCasts_S12500_S12500x1)
    0x7F800000#32 reduces_S12500x1_S1 (.inl rfl) rfl) shapeCasts_S1_S1x1

/-- The kernel's global maximum of a [12500, 128] array, kept as a [1, 1] array. -/
private def kmax (V : FVec Ideal S12500x128 .f32) : FVec Ideal S1x1 .f32 :=
  shapeCast S1x1 (multiReduction .maximumf [0] S1 (shapeCast S12500x1
    (multiReduction .maximumf [1] S12500 V 0xFF800000#32 reduces_S12500x128_S12500 (.inl rfl) rfl) shapeCasts_S12500_S12500x1)
    0xFF800000#32 reduces_S12500x1_S1 (.inl rfl) rfl) shapeCasts_S1_S1x1

/-- The exponential at an index, at the extended reals. -/
private theorem exp_apply {s : Shape} {φ : FTy} (x : FVec Ideal s φ) (i : s.Idx) : exp x i = Ideal.exp (x i) := rfl

/-- Min-max normalisation with [1, 1] extremes broadcast over a grid, then the exponential, read at an index. -/
private theorem normExpGrid_apply (V : FVec Ideal S12500x128 .f32) (m M : FVec Ideal S1x1 .f32) (j : S12500x128.Idx) :
    exp (divf (subf V (broadcastTo S12500x128 m broadcasts_S1x1_S12500x128))
        (broadcastTo S12500x128 (subf M m) broadcasts_S1x1_S12500x128)) j
      = Ideal.exp (Ideal.div (V j - m (ix2 (0 : Fin 1) (0 : Fin 1))) (M (ix2 (0 : Fin 1) (0 : Fin 1)) - m (ix2 (0 : Fin 1) (0 : Fin 1)))) := by
  rw [exp_apply, divf_apply, subf_apply, bcast11_apply, bcast11_apply, subf_apply]

/-- The kernel's body at an index: the exponential of the min-max normalised rectified sum. -/
private theorem k1_pay1_apply (x y : FVec Ideal S12500x128 .f32) (j : S12500x128.Idx) :
    k1_pay1 (F := Ideal) x y j = Ideal.exp (Ideal.div
      (gridLeaky (addf x y) j - kmin (gridLeaky (addf x y)) (ix2 (0 : Fin 1) (0 : Fin 1)))
      (kmax (gridLeaky (addf x y)) (ix2 (0 : Fin 1) (0 : Fin 1)) - kmin (gridLeaky (addf x y)) (ix2 (0 : Fin 1) (0 : Fin 1)))) := by
  unfold k1_pay1
  simp only [shapeCast_self]
  exact normExpGrid_apply _ _ _ j

/-- The kernel's rectified sum of the two grid layouts is the grid layout of the reference's rectified sum. -/
private theorem gridLeaky_eq (a b : FVec Ideal S1600000 .f32) :
    gridLeaky (addf (shapeCast S12500x128 a shapeCasts_S1600000_S12500x128) (shapeCast S12500x128 b shapeCasts_S1600000_S12500x128))
      = shapeCast S12500x128 (leaky (addf a b)) shapeCasts_S1600000_S12500x128 := rfl

/-- Every flat index is 128 r + l for a row r and a lane l. -/
private theorem exists_grid (e : S1600000.Idx) : ∃ (r : Fin 12500) (l : Fin 128), e = ix1 ⟨r.val * 128 + l.val, flat_lt r l⟩ := by
  have he : (e 0).val < 1600000 := (e 0).isLt
  refine ⟨⟨(e 0).val / 128, by omega⟩, ⟨(e 0).val % 128, by omega⟩, funext fun ax => Fin.ext ?_⟩
  match ax with
  | ⟨0, _⟩ =>
    show (e 0).val = (e 0).val / 128 * 128 + (e 0).val % 128
    omega

/-- The kernel's global minimum of the grid layout of a flat vector is the minimum over the flat vector. -/
private theorem kmin_flat (R : FVec Ideal S1600000 .f32) :
    kmin (shapeCast S12500x128 R shapeCasts_S1600000_S12500x128) (ix2 (0 : Fin 1) (0 : Fin 1))
      = Finset.univ.fold min (Ideal.ofBits .f32 0x7F800000#32) R := by
  refine (kernMin_eq _).trans ?_
  simp only [toGrid_apply]
  refine fold_min_rows _ _ _ (fun r l => ⟨_, rfl⟩) (fun e => ?_)
  obtain ⟨r, l, rfl⟩ := exists_grid e
  exact ⟨r, l, rfl⟩

/-- The kernel's global maximum of the grid layout of a flat vector is the maximum over the flat vector. -/
private theorem kmax_flat (R : FVec Ideal S1600000 .f32) :
    kmax (shapeCast S12500x128 R shapeCasts_S1600000_S12500x128) (ix2 (0 : Fin 1) (0 : Fin 1))
      = Finset.univ.fold max (Ideal.ofBits .f32 0xFF800000#32) R := by
  refine (kernMax_eq _).trans ?_
  simp only [toGrid_apply]
  refine fold_max_rows _ _ _ (fun r l => ⟨_, rfl⟩) (fun e => ?_)
  obtain ⟨r, l, rfl⟩ := exists_grid e
  exact ⟨r, l, rfl⟩

/-- The host's exponential at an index, at the extended reals. -/
private theorem hostExp_apply {s : Shape} {φ : FTy} (x : FVec Ideal s φ) (i : s.Idx) : Host.exp x i = Ideal.exp (x i) := rfl

/-- The host's quotient at an index, at the extended reals. -/
private theorem hostDivf_apply {s : Shape} {φ : FTy} (x y : FVec Ideal s φ) (i : s.Idx) : Host.divf x y i = Ideal.div (x i) (y i) := rfl

/-- A rank-0 array broadcast to any shape reads its one element everywhere. -/
private theorem bcastScalar_apply {α : Type} {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun a => a.elim0

/-- The reference's min-max normalisation and exponential at an index. -/
private theorem normExp_apply (R : FVec Ideal S1600000 .f32) (k : S1600000.Idx) :
    normExp R k = Ideal.exp (Ideal.div
      (R k - Finset.univ.fold min (Ideal.ofBits .f32 0x7F800000#32) R)
      (Finset.univ.fold max (Ideal.ofBits .f32 0xFF800000#32) R - Finset.univ.fold min (Ideal.ofBits .f32 0x7F800000#32) R)) := by
  unfold normExp
  rw [hostExp_apply, hostDivf_apply, subf_apply, bcastScalar_apply, bcastScalar_apply, subf_apply, minAll_apply, maxAll_apply]

theorem score_flat (a b : FVec Ideal S1600000 .f32) :
    shapeCast S1600000 (k1_pay1 (shapeCast S12500x128 a shapeCasts_S1600000_S12500x128) (shapeCast S12500x128 b shapeCasts_S1600000_S12500x128)) shapeCasts_S12500x128_S1600000
      = edgeScore a b := by
  funext e
  obtain ⟨r, l, rfl⟩ := exists_grid e
  unfold edgeScore
  rw [toFlat_apply, k1_pay1_apply, gridLeaky_eq, kmin_flat, kmax_flat, toGrid_apply, normExp_apply]

end Cert.Gat

end
-- ==== Proof.IndexRange.lean ====
/-
  Under the precondition every edge index is a row number of the tables, so the kernel's filling takes are plain
  gathers. `inRange_of_pre`: the precondition's last four conjuncts say, signed, 0 ≤ x4[e] < 100000 and
  0 ≤ x5[e] < 100000 for every edge e. `validMask_eq_one`: for such an index vector the wrap by 100000 changes no
  entry and both range tests of the take pass at every edge, so the validity mask is all ones. `takeVec_eq`,
  `takeRows_eq`: a select on an all-ones mask is its first operand, so each filling take is the gather at the wrapped
  index column.
-/
import proofs.«419654_j62182536511730_3_alg».proof.Proof.TakeFill
import proofs.«419654_j62182536511730_3_alg».proof.Proof.Gen.Pre_finite_inputs
import Idealize.ShloMosaic.Lib.ReduceAll
import Idealize.ShloMosaic.Lib.StableHlo.Predicate
import Idealize.ShloMosaic.Lib.WordArith

noncomputable section

namespace Cert.Gat

open Cert.KernelIdeal Cert.KernelIdeal.Gen Idealize.ShloMosaic

/-- Every entry of an index vector is a row number of the tables: in [0, 100000). -/
def InRange (idx : IVec S1600000 32) : Prop := ∀ e : S1600000.Idx, 0 ≤ (idx e).toInt ∧ (idx e).toInt < 100000

/-- A signed "at least zero" test that passes says the word's signed value is not negative. -/
private theorem toInt_nonneg_of_sge {w : BitVec 32} (h : IntOp.cmpi .sge w 0#32 = 1#1) : 0 ≤ w.toInt := by
  unfold IntOp.cmpi at h
  rw [StableHlo.Predicate.ofBool_eq_one_iff] at h
  have h' := BitVec.sle_iff_toInt_le.1 h
  simpa using h'

/-- A signed "below 100000" test that passes says the word's signed value is below 100000. -/
private theorem toInt_lt_of_slt {w : BitVec 32} (h : IntOp.cmpi .slt w 100000#32 = 1#1) : w.toInt < 100000 := by
  unfold IntOp.cmpi at h
  rw [StableHlo.Predicate.ofBool_eq_one_iff] at h
  have h' := BitVec.slt_iff_toInt_lt.1 h
  have e : (100000#32 : BitVec 32).toInt = 100000 := by decide
  rw [e] at h'
  exact h'

private instance : Subsingleton Cert.Pre_finite_inputs.S_.Idx := ⟨fun a b => funext fun d => d.elim0⟩

theorem inRange_of_pre (x0 : FVec Ideal S100000x256 .f32) (x1 : FVec Ideal S256x64 .f32) (x2 x3 : FVec Ideal S1x64 .f32) (x4 x5 : IVec S1600000 32)
    (h : Cert.Pre_finite_inputs.fn (F := Ideal) x0 x1 x2 x3 x4 x5 = fun _ => 1#1) : InRange x4 ∧ InRange x5 := by
  have h0 := congrFun h ValueIdx.ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨-, h4ge⟩, h4lt⟩, h5ge⟩, h5lt⟩ := h0
  refine ⟨fun e => ⟨?_, ?_⟩, fun e => ⟨?_, ?_⟩⟩
  · exact toInt_nonneg_of_sge (Host.reduce_andi_all _ _ _ _ _ h4ge e)
  · exact toInt_lt_of_slt (Host.reduce_andi_all _ _ _ _ _ h4lt e)
  · exact toInt_nonneg_of_sge (Host.reduce_andi_all _ _ _ _ _ h5ge e)
  · exact toInt_lt_of_slt (Host.reduce_andi_all _ _ _ _ _ h5lt e)

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- An index in [0, 100000) is not wrapped: the select on "negative" keeps it. -/
private theorem wrap_word {w : BitVec 32} (h0 : 0 ≤ w.toInt) :
    Scalar.select (IntOp.cmpi .slt w 0#32) (IntOp.addi w 100000#32) w = w := by
  have hc : IntOp.cmpi .slt w 0#32 = 0#1 := by
    unfold IntOp.cmpi
    have : w.slt 0#32 = false := by
      rw [Bool.eq_false_iff]; intro hs
      have h' := BitVec.slt_iff_toInt_lt.1 hs
      simp at h'; omega
    rw [this]; rfl
  rw [hc]; rfl

/-- Both range tests of the take pass on an index in [0, 100000). -/
private theorem tests_word {w : BitVec 32} (h0 : 0 ≤ w.toInt) (h1 : w.toInt < 100000) :
    IntOp.andi (IntOp.cmpi .sge w 0#32) (IntOp.cmpi .sle w 99999#32) = 1#1 := by
  have e9 : (99999#32 : BitVec 32).toInt = 99999 := by decide
  have e0 : (0#32 : BitVec 32).toInt = 0 := by decide
  have ha : IntOp.cmpi .sge w 0#32 = 1#1 := by
    unfold IntOp.cmpi
    rw [StableHlo.Predicate.ofBool_eq_one_iff, BitVec.sle_iff_toInt_le, e0]; exact h0
  have hb : IntOp.cmpi .sle w 99999#32 = 1#1 := by
    unfold IntOp.cmpi
    rw [StableHlo.Predicate.ofBool_eq_one_iff, BitVec.sle_iff_toInt_le, e9]; omega
  rw [ha, hb]; decide

/-- Under the range hypothesis the wrapped column holds the indices themselves. -/
private theorem wrapCol_eq (idx : IVec S1600000 32) (h : InRange idx) :
    wrapCol idx = broadcastInDim S1600000x1 ![0] Cert.ReferenceIdeal.Gen.bcast_S1600000_S1600000x1_0 idx := by
  unfold wrapCol
  congr 1
  funext e
  exact wrap_word (h e).1

/-- Under the range hypothesis every edge passes the take's validity test. -/
theorem validMask_eq_one (idx : IVec S1600000 32) (h : InRange idx) : validMask idx = fun _ => 1#1 := by
  funext e
  unfold validMask
  rw [Host.reduce_eq_foldl]
  refine foldl_andi_one _ (fun i => ?_) _
  rw [wrapCol_eq idx h]
  exact tests_word (h _).1 (h _).2

theorem takeVec_eq {F : FTy → Type} [FloatOps F] (tbl : FVec F S100000 .f32) (idx : IVec S1600000 32) (h : InRange idx) :
    takeVec tbl idx = Host.gather gather_S100000_S1600000x1_S1600000_n_0_n_n_0_1_1 tbl (wrapCol idx) := by
  unfold takeVec
  rw [validMask_eq_one idx h]
  rfl

theorem takeRows_eq {F : FTy → Type} [FloatOps F] (tbl : FVec F S100000x64 .f32) (idx : IVec S1600000 32) (h : InRange idx) :
    takeRows tbl idx = Host.gather gather_S100000x64_S1600000x1_S1600000x64_1_0_n_n_0_1_164 tbl (wrapCol idx) := by
  unfold takeRows
  rw [validMask_eq_one idx h]
  rfl

end Cert.Gat

end
-- ==== Proof.KernelValue.lean ====
/-
  The kernel's program computes the reference's function.

  Its result buffer after the run is the aggregation (per-row weight sums, per-row weighted feature sums, their
  quotient) of: the score kernel's output flattened to one weight per edge; the rows of the first launch's product
  array taken at the column indices; and the row indices. The first launch's product array is X·W and its two score
  columns are the row sums of (X·W)·a0 and (X·W)·a1; when every edge index is a row number of the tables the filling
  takes are plain gathers; and the score kernel's body on the [12500, 128] layout is the edge score over all edges. So
  the result is the reference's last stage of the launch arrays.
-/
import proofs.«419654_j62182536511730_3_alg».proof.Proof.KernelHost
import proofs.«419654_j62182536511730_3_alg».proof.Proof.MatmulRows
import proofs.«419654_j62182536511730_3_alg».proof.Proof.ScoreBlock
import proofs.«419654_j62182536511730_3_alg».proof.Proof.ScoreFlat
import proofs.«419654_j62182536511730_3_alg».proof.Proof.IndexRange

noncomputable section

namespace Cert.Gat

open Cert.KernelIdeal Cert.KernelIdeal.Gen Idealize.ShloMosaic Idealize.ShloMosaic.TcCoe Idealize.SL.Sem Idealize.ShloMosaic.StableHlo
open Cert.ReferenceIdeal.Read (val_main_v0 val_main_v3 val_main_v6 val_main_v13 val_main_v20 val_main_v34 val_main_v45 val_main_v55)

variable (m : (ℓ : Loc nD τ sig) → Buf (Elt Ideal) ℓ) (ρ : Dev nD → PrngReg) (c : Dev nD)

/-! ## The launch arrays -/

/-- The node features X as launched. -/
abbrev aX : FVec Ideal S100000x256 .f32 := m ((c : Thread nD τ).loc main_arg0)
/-- The weights W as launched. -/
abbrev aW : FVec Ideal S256x64 .f32 := m ((c : Thread nD τ).loc main_arg1)
/-- The first attention vector as launched. -/
abbrev aA0 : FVec Ideal S1x64 .f32 := m ((c : Thread nD τ).loc main_arg2)
/-- The second attention vector as launched. -/
abbrev aA1 : FVec Ideal S1x64 .f32 := m ((c : Thread nD τ).loc main_arg3)
/-- The edges' row indices as launched. -/
abbrev aRow : IVec S1600000 32 := m ((c : Thread nD τ).loc main_arg4)
/-- The edges' column indices as launched. -/
abbrev aCol : IVec S1600000 32 := m ((c : Thread nD τ).loc main_arg5)

/-! ## After the first launch -/

/-- The product array after the first launch is X·W. -/
theorem W1_xp : W1 m ρ c (Proc.devRef .tc main_v0_0) = val_main_v0 (aX m c) (aW m c) :=
  (W1_arr m ρ c 4).trans (xp_array (V0 m ρ) c)

/-- The first score column after the first launch, as a vector, is the row sums of (X·W)·a0. -/
theorem W1_s0 : shapeCast S100000 (W1 m ρ c (Proc.devRef .tc main_v0_1)) shapeCasts_S100000x1_S100000
    = val_main_v3 (aX m c) (aW m c) (aA0 m c) :=
  (congrArg (fun z => shapeCast S100000 z shapeCasts_S100000x1_S100000) (W1_arr m ρ c 5)).trans (s0_array (V0 m ρ) c)

/-- The second score column, as a vector, is the row sums of (X·W)·a1. -/
theorem W1_s1 : shapeCast S100000 (W1 m ρ c (Proc.devRef .tc main_v0_2)) shapeCasts_S100000x1_S100000
    = val_main_v6 (aX m c) (aW m c) (aA1 m c) :=
  (congrArg (fun z => shapeCast S100000 z shapeCasts_S100000x1_S100000) (W1_arr m ρ c 6)).trans (s1_array (V0 m ρ) c)

/-- The first launch leaves the row indices as launched. -/
theorem W1_row : W1 m ρ c (Proc.devRef .tc main_arg4) = aRow m c := W1_of_ne m ρ c main_arg4 (by decide)

/-- The first launch leaves the column indices as launched. -/
theorem W1_col : W1 m ρ c (Proc.devRef .tc main_arg5) = aCol m c := W1_of_ne m ρ c main_arg5 (by decide)

/-! ## At the second launch -/

/-- The score kernel's first input: the first score vector taken at the row indices, in the [12500, 128] layout. -/
theorem V5_v5 : (V5 m ρ c main_v5 : FVec Ideal S12500x128 .f32)
    = shapeCast S12500x128 (takeVec (F := Ideal) (val_main_v3 (F := Ideal) (aX m c) (aW m c) (aA0 m c)) (aRow m c)) shapeCasts_S1600000_S12500x128 := by
  refine (mid_v5 (W1 m ρ c)).trans ?_
  rw [W1_s0, W1_row]

/-- The score kernel's second input: the second score vector taken at the column indices, in the same layout. -/
theorem V5_v6 : (V5 m ρ c main_v6 : FVec Ideal S12500x128 .f32)
    = shapeCast S12500x128 (takeVec (F := Ideal) (val_main_v6 (F := Ideal) (aX m c) (aW m c) (aA1 m c)) (aCol m c)) shapeCasts_S1600000_S12500x128 := by
  refine (mid_v6 (W1 m ρ c)).trans ?_
  rw [W1_s1, W1_col]

/-- After the second launch the product array is still X·W. -/
theorem W6_xp : W6 m ρ c (Proc.devRef .tc main_v0_0) = val_main_v0 (aX m c) (aW m c) :=
  (W6_of_ne m ρ c main_v0_0 (by decide)).trans ((mid_v0_0 (W1 m ρ c)).trans (W1_xp m ρ c))

/-- After the second launch the row indices are as launched. -/
theorem W6_row : W6 m ρ c (Proc.devRef .tc main_arg4) = aRow m c :=
  (W6_of_ne m ρ c main_arg4 (by decide)).trans ((mid_arg4 (W1 m ρ c)).trans (W1_row m ρ c))

/-- After the second launch the column indices are as launched. -/
theorem W6_col : W6 m ρ c (Proc.devRef .tc main_arg5) = aCol m c :=
  (W6_of_ne m ρ c main_arg5 (by decide)).trans ((mid_arg5 (W1 m ρ c)).trans (W1_col m ρ c))

/-- The score kernel's output array is its body of its two inputs. -/
theorem W6_att : W6 m ρ c (Proc.devRef .tc main_v7) = k1_pay1 (V5 m ρ c main_v5) (V5 m ρ c main_v6) :=
  (W6_arr m ρ c 2).trans (att_array (V5 m ρ) c)

/-! ## The result -/

/-- With every edge index a row number of the tables, the result buffer after the run holds the reference's last stage
    of the launch arrays. -/
theorem kernel_value (hrow : InRange (aRow m c)) (hcol : InRange (aCol m c)) :
    W9 m ρ c (Proc.devRef .tc main_v23)
      = val_main_v55 (aX m c) (aW m c) (aA0 m c) (aA1 m c) (aRow m c) (aCol m c) := by
  refine (tail_out (W6 m ρ c)).trans ?_
  rw [W6_att, W6_xp, W6_row, W6_col, V5_v5, V5_v6, score_flat, takeVec_eq _ _ hrow, takeVec_eq _ _ hcol, takeRows_eq _ _ hcol]
  rw [ref_out, ref_att, ref_gather_row, ref_gather_col, ref_gather_feat]
  rfl

end Cert.Gat

end
-- ==== Proof.lean ====
/-
  The certificate's claim for the sparse graph-attention layer.

  Both programs compute, for N = 100000 nodes and E = 1600000 edges (row[e], col[e]): X' = X·W; per-node scores
  s0 = Σ_j X'[·, j]·a0[j], s1 = Σ_j X'[·, j]·a1[j]; per-edge z = s0[row e] + s1[col e], the leaky rectifier with slope 0.2,
  the min-max normalisation over ALL edges and the exponential; then the per-row sum S of the edge weights, the per-row
  sum H of the weights times X'[col e, ·], and H / max (S, 1e-12). The kernel does X·W and the two row sums in one
  launch over 25 row blocks, and the rectifier, the global minimum and maximum (over lanes, then over rows) and the
  exponential in a second launch over the edges laid out as [12500, 128]; the gathers and segment sums are the same host
  operations in both programs, except that the kernel's takes fill out-of-range entries, which the precondition
  (every index in [0, 100000)) rules out. Over the extended reals the two results are equal index by index: the
  products, sums, minima and maxima are over the same families, only grouped differently.

  The three frames: the two kernel programs' runs are the generated ones; the reference's is its generated run with the
  result dropped. The idealization rewrote nothing, so there is nothing to preserve. The algebraic conjunct sets the
  kernel's run with its result named beside the reference's run, both at the reference's last stage of the launch arrays.
-/
import proofs.«419654_j62182536511730_3_alg».proof.Defs
import proofs.«419654_j62182536511730_3_alg».proof.Proof.Gen.Kernel
import proofs.«419654_j62182536511730_3_alg».proof.Proof.Gen.Kernel.Skeleton
import proofs.«419654_j62182536511730_3_alg».proof.Proof.Gen.Kernel.Launch
import proofs.«419654_j62182536511730_3_alg».proof.Proof.Gen.Kernel.Points
import proofs.«419654_j62182536511730_3_alg».proof.Proof.Gen.Kernel.Frame
import proofs.«419654_j62182536511730_3_alg».proof.Proof.Gen.KernelIdeal
import proofs.«419654_j62182536511730_3_alg».proof.Proof.Gen.KernelIdeal.Skeleton
import proofs.«419654_j62182536511730_3_alg».proof.Proof.Gen.KernelIdeal.Launch
import proofs.«419654_j62182536511730_3_alg».proof.Proof.Gen.KernelIdeal.Points
import proofs.«419654_j62182536511730_3_alg».proof.Proof.Gen.KernelIdeal.Frame
import proofs.«419654_j62182536511730_3_alg».proof.Proof.Gen.ReferenceIdeal
import proofs.«419654_j62182536511730_3_alg».proof.Proof.Gen.ReferenceIdeal.Run
import proofs.«419654_j62182536511730_3_alg».proof.Proof.Gen.ReferenceIdeal.Read
import proofs.«419654_j62182536511730_3_alg».proof.Proof.Gen.Pre_finite_inputs
import proofs.«419654_j62182536511730_3_alg».proof.Proof.KernelRun
import proofs.«419654_j62182536511730_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both idealized programs end with the reference's
    last stage of the kernel's launch arrays in their result buffers. -/
theorem algebraic : Cert.algebraic_KernelIdeal_ReferenceIdeal := by
  intro m ρ m' ρ' hpre hagree
  refine ⟨fun c => Cert.ReferenceIdeal.Read.val_main_v55 (F := Ideal) (Cert.Gat.aX m c) (Cert.Gat.aW m c) (Cert.Gat.aA0 m c)
      (Cert.Gat.aA1 m c) (Cert.Gat.aRow m c) (Cert.Gat.aCol m c), ?_, ?_⟩
  · refine (θ_run Cert.KernelIdeal.defs _ _).mono (fun r h c => ⟨(h c).1.trans ?_, (h c).2⟩) (Cert.KernelIdeal.ValueRun.run m ρ)
    obtain ⟨hrow, hcol⟩ := Cert.Gat.inRange_of_pre _ _ _ _ _ _ (hpre c)
    exact Cert.Gat.kernel_value m ρ c hrow hcol
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
